-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S512x595 : S_.BroadcastsInDim S512x595 (![] : Fin 0 → Fin S512x595.rank)
  reducesTo_S512x595_S_d0_1 : S512x595.ReducesTo [0, 1] S_
  h_S_ : 0 < S_.numel
  bcast_S_S595x128 : S_.BroadcastsInDim S595x128 (![] : Fin 0 → Fin S595x128.rank)
  reducesTo_S595x128_S_d0_1 : S595x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S384x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S512x595 .f32) (main_arg1 : FVec F S595x128 .f32) (main_arg2 : FVec F S128 .f32) (main_arg3 : FVec F S128x128 .f32) (main_arg4 : FVec F S128 .f32) (main_arg5 : FVec F S384x128 .f32) (main_arg6 : FVec F S128 .f32) (main_arg7 : FVec F S128x1 .f32) (main_arg8 : FVec F S1 .f32) : IVec S_ 1 :=
  let main_v0 : FVec F S512x595 .f32 := Host.absf main_arg0
  let main_cst : FVec F S_ .f32 := constant S_ .f32 0x7F800000#32
  let main_v1 : FVec F S512x595 .f32 := broadcastInDim S512x595 ![] bcast_S_S512x595 main_cst
  let main_v2 : IVec S512x595 1 := cmpf .olt main_v0 main_v1
  let main_c : IVec S_ 1 := constantI S_ 1 1#1
  let main_v3 : IVec S_ 1 := (fun x v => Host.reduce IntOp.andi x v reducesTo_S512x595_S_d0_1 h_S_) main_v2 main_c
  let main_v4 : FVec F S595x128 .f32 := Host.absf main_arg1
  let main_cst_0 : FVec F S_ .f32 := constant S_ .f32 0x7F800000#32
  let main_v5 : FVec F S595x128 .f32 := broadcastInDim S595x128 ![] bcast_S_S595x128 main_cst_0
  let main_v6 : IVec S595x128 1 := cmpf .olt main_v4 main_v5
  let main_c_1 : IVec S_ 1 := constantI S_ 1 1#1
  let main_v7 : IVec S_ 1 := (fun x v => Host.reduce IntOp.andi x v reducesTo_S595x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S1x1 : Shape := ⟨2, ![1, 1]⟩
abbrev S512x512 : Shape := ⟨2, ![512, 512]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S1x1x128 : Shape := ⟨3, ![1, 1, 128]⟩

abbrev nBuf : Space → Nat
  | .hbm => 33
  | .vmem => 14
  | .smem => 0
  | _ => 0

abbrev bufTy : (tb : Table) → Fin (tcTables nBuf tb) → BufTy
  | .hbm, ⟨0, _⟩ => ⟨S512x595, .f32⟩
  | .hbm, ⟨1, _⟩ => ⟨S595x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S1x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S512x128, .f32⟩
  | .hbm, ⟨28, _⟩ => ⟨S512x128, .f32⟩
  | .hbm, ⟨29, _⟩ => ⟨S1x128, .f32⟩
  | .hbm, ⟨30, _⟩ => ⟨S1x128, .f32⟩
  | .hbm, ⟨31, _⟩ => ⟨S1x1, .f32⟩
  | .hbm, ⟨32, _⟩ => ⟨S512x512, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S64x128, .f32⟩
  | .local _ .vmem, ⟨5, _⟩ => ⟨S64x128, .f32⟩
  | .local _ .vmem, ⟨6, _⟩ => ⟨S128x128, .f32⟩
  | .local _ .vmem, ⟨7, _⟩ => ⟨S128x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S64x128, .f32⟩
  | .local _ .vmem, ⟨13, _⟩ => ⟨S64x128, .f32⟩
  | _, _ => ⟨S512x595, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bitsLt_bf16_f32 : FTy.bits .bf16 < FTy.bits .f32
  shapeCasts_S128_S1x128 : S128.ShapeCasts S1x128
  shapeCasts_S128x1_S1x128 : S128x1.ShapeCasts S1x128
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S64x128x128_S8192x128 : S64x128x128.ShapeCasts S8192x128
  shapeCasts_S8192x128_S64x128x128 : S8192x128.ShapeCasts S64x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  shapeCasts_S128_S1x1x128 : S128.ShapeCasts S1x1x128
  broadcasts_S1x1x128_S64x128x128 : S1x1x128.Broadcasts S64x128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S64x128x128_S64x128 : S64x128x128.Reduces [2] S64x128
  inpos_S1x1_p0_0 : ∀ a, (![0, 0] : Fin 2 → Nat) a < S1x1.size a
  dot_S512x595_S595x128_S512x128_1_0_0_1_n_n_wf : DotDims.WF S512x595 S595x128 S512x128 [1] [0] [0] [1] [] []
  dot_S512x128_S128x128_S512x128_1_0_0_1_n_n_wf : DotDims.WF S512x128 S128x128 S512x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x128.size a
  hwx0_0 : ∀ i : grid0.Coords, EltTy.bits .f32 = 32 ∨ (Rect.block (s := S512x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x128.size a
  hwx0_2 : ∀ i : grid0.Coords, EltTy.bits .f32 = 32 ∨ (Rect.block (s := S512x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x128.size a
  hwx0_3 : ∀ i : grid0.Coords, EltTy.bits .f32 = 32 ∨ (Rect.block (s := S512x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S512x512.size a
  hwx0_8 : ∀ i : grid0.Coords, EltTy.bits .f32 = 32 ∨ (Rect.block (s := S512x512) S64x128.size (cc0_transform_8 i) (hinb0_8 i)).WholeWords (EltTy.packing .f32)

variable [Facts₀]

def dot_S512x595_S595x128_S512x128_1_0_0_1_n_n : DotDims S512x595 S595x128 S512x128 where
  lhsContracting := [1]
  rhsContracting := [0]
  lhsNonContracting := [0]
  rhsNonContracting := [1]
  lhsBatch := []
  rhsBatch := []
  wf := dot_S512x595_S595x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v9) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S512x1x128 : Shape := ⟨3, ![512, 1, 128]⟩
abbrev S512x512x128 : Shape := ⟨3, ![512, 512, 128]⟩
abbrev S1x512x128 : Shape := ⟨3, ![1, 512, 128]⟩
abbrev S512x512x384 : Shape := ⟨3, ![512, 512, 384]⟩
abbrev S1x1x128 : Shape := ⟨3, ![1, 1, 128]⟩
abbrev S512x512x1 : Shape := ⟨3, ![512, 512, 1]⟩
abbrev S1x1x1 : Shape := ⟨3, ![1, 1, 1]⟩
abbrev S512x512 : Shape := ⟨2, ![512, 512]⟩

abbrev nBuf : Space → Nat
  | .hbm => 42
  | .vmem => 0
  | .smem => 0
  | _ => 0

abbrev bufTy : (tb : Table) → Fin (tcTables nBuf tb) → BufTy
  | .hbm, ⟨0, _⟩ => ⟨S512x595, .f32⟩
  | .hbm, ⟨1, _⟩ => ⟨S595x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S1x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x1x128, .f32⟩
  | .hbm, ⟨24, _⟩ => ⟨S512x512x128, .f32⟩
  | .hbm, ⟨25, _⟩ => ⟨S1x512x128, .f32⟩
  | .hbm, ⟨26, _⟩ => ⟨S512x512x128, .f32⟩
  | .hbm, ⟨27, _⟩ => ⟨S512x512x128, .f32⟩
  | .hbm, ⟨28, _⟩ => ⟨S512x512x128, .f32⟩
  | .hbm, ⟨29, _⟩ => ⟨S512x512x384, .f32⟩
  | .hbm, ⟨30, _⟩ => ⟨S512x512x128, .f32⟩
  | .hbm, ⟨31, _⟩ => ⟨S1x1x128, .f32⟩
  | .hbm, ⟨32, _⟩ => ⟨S512x512x128, .f32⟩
  | .hbm, ⟨33, _⟩ => ⟨S512x512x128, .f32⟩
  | .hbm, ⟨34, _⟩ => ⟨S_, .f32⟩
  | .hbm, ⟨35, _⟩ => ⟨S512x512x128, .f32⟩
  | .hbm, ⟨36, _⟩ => ⟨S512x512x128, .f32⟩
  | .hbm, ⟨37, _⟩ => ⟨S512x512x1, .f32⟩
  | .hbm, ⟨38, _⟩ => ⟨S1x1x1, .f32⟩
  | .hbm, ⟨39, _⟩ => ⟨S512x512x1, .f32⟩
  | .hbm, ⟨40, _⟩ => ⟨S512x512x1, .f32⟩
  | .hbm, ⟨41, _⟩ => ⟨S512x512, .f32⟩
  | _, _ => ⟨S512x595, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call2_cst : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  concatenates_S512x512x128_S512x512x128_S512x512x128_S512x512x384_d2 : Shape.Concatenates [S512x512x128, S512x512x128, S512x512x128] S512x512x384 2
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  shapeCasts_S512x512x1_S512x512 : S512x512x1.ShapeCasts S512x512
  dot_S512x595_S595x128_S512x128_1_0_0_1_n_n_wf : DotDims.WF S512x595 S595x128 S512x128 [1] [0] [0] [1] [] []
  dot_S512x128_S128x128_S512x128_1_0_0_1_n_n_wf : DotDims.WF S512x128 S128x128 S512x128 [1] [0] [0] [1] [] []
  dot_S512x512x384_S384x128_S512x512x128_2_0_01_1_n_n_wf : DotDims.WF S512x512x384 S384x128 S512x512x128 [2] [0] [0, 1] [1] [] []
  dot_S512x512x128_S128x1_S512x512x1_2_0_01_1_n_n_wf : DotDims.WF S512x512x128 S128x1 S512x512x1 [2] [0] [0, 1] [1] [] []

variable [Facts₀]

def dot_S512x595_S595x128_S512x128_1_0_0_1_n_n : DotDims S512x595 S595x128 S512x128 where
  lhsContracting := [1]
  rhsContracting := [0]
  lhsNonContracting := [0]
  rhsNonContracting := [1]
  lhsBatch := []
  rhsBatch := []
  wf := dot_S512x595_S595x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512x384_S384x128_S512x512x128_2_0_01_1_n_n : DotDims S512x512x384 S384x128 S512x512x128 where
  lhsContracting := [2]
  rhsContracting := [0]
  lhsNonContracting := [0, 1]
  rhsNonContracting := [1]
  lhsBatch := []
  rhsBatch := []
  wf := dot_S512x512x384_S384x128_S512x512x128_2_0_01_1_n_n_wf
def dot_S512x512x128_S128x1_S512x512x1_2_0_01_1_n_n : DotDims S512x512x128 S128x1 S512x512x1 where
  lhsContracting := [2]
  rhsContracting := [0]
  lhsNonContracting := [0, 1]
  rhsNonContracting := [1]
  lhsBatch := []
  rhsBatch := []
  wf := dot_S512x512x128_S128x1_S512x512x1_2_0_01_1_n_n_wf

class Facts : Prop extends Facts₀ where

variable [Facts]
-- ==== Proof.KernelEntry.lean ====
/-
  The program up to its one kernel region: the host lines that come before it (the node encoder's two
  layers, the three bands of the first decoder weight, the two precomputed contractions, three reshapes),
  run as one straight line, and what each array holds when the region is entered. The nine argument arrays
  are written by no host line, so the region finds them as launched.
-/
import proofs.«176014_j27152783245644_1_alg».proof.Proof.Gen.Kernel.Launch
import proofs.«176014_j27152783245644_1_alg».proof.Proof.Gen.Kernel.Skeleton
import proofs.«176014_j27152783245644_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Facts₀ Cert.Kernel.Facts

variable {F : FTy → Type} [FloatOps F]

variable (m : (ℓ : Loc nD τ sig) → Buf (Elt F) ℓ) (ρ : Dev nD → PrngReg)

/-- Core `c`'s arrays when the region is entered: the launch contents after the host lines. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.LibSharedFrame.lean ====
/-
  The frame run of a one-region TensorCore program whose kernel has no semaphore of its own, prefetches
  nothing, carries nothing between grid points outside its staging buffers, does not use the generator
  register, and MAY BE HANDED ONE ARRAY THROUGH SEVERAL INPUT WINDOWS, the region the last thing @main does.

  The library's frame run for this class of kernel asks the windows' arrays pairwise distinct, because it
  hands each window its array whole. Here the certificate says instead how the distinct buffers behind the
  arrays, each whole at the region-entry contents, make the proof data's arrays (`hsplit`): an array read by
  several input windows is split among them, the proof data's `q` naming each window's share. Everything else
  is the library's launch for shared arrays with the class's choices made: the invariant is the scoped rest
  at every point, nothing is routed through the region besides, the buffers no window stages bypass it and
  are read back at the end. The conclusion is the library's `FramePost`: every window's array at what the
  proof data compute, every bypassing buffer as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

omit [Fintype P] [DecidableEq P] [∀ e, Nonempty (Val e)] in
/-- The proof data's arrays, every window's array a whole buffer: each window's buffer whole at that window's share. -/
theorem arrays_eq_at_shares (c : Dev nD) (harr : ∀ w, ((cfg).spec w).arr.IsWhole)
    (G : (w : Fin (cfg).W) → Buf Val (((cfg).spec w).arr.view.loc (c.tc : Thread nD τ))) :
    (dats p c).arrays G = bigSep Finset.univ fun w => (((c.tc : Thread nD τ).loc (arrRef (cfg).spec w)) ↦{(dats p c).share w} G w : sProp 𝕄) := by
  unfold Dat.arrays
  exact BI.bigSep_congr fun w _ => by rw [(harr w).set_eq_univ]

include hinj hw in
/-- The frame run for windows that may share arrays: from any memory with zero counters every weakly fair execution
    of @main terminates, every window's array ends at `arrAt … N` of the proof data and every buffer no window
    stages ends as the region found it. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := show (ownU _ : sProp 𝕄) ⊢ BI.own (emb₁ (initOf (cells cfgs hinj) (launchToks cfgs hinj))) from .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩; iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The kernel region of the pairwise decoder: it runs to the end on every core, faults nowhere, and leaves the
  argument arrays as they were.

  The region's grid is 8 x 4 points; at point (a, b) the body reads the 64 embedding rows of tile a and the
  128 embedding rows of tile b — two windows on ONE array, the node embeddings —, the matching rows of the two
  precomputed contractions, the third band of the first weight (as one whole block), the two biases and the
  second weight, and stores one 64 x 128 tile of scores. The two windows on the embeddings each hold half a
  share of that array: they only read it. Every input window's staging buffer holds its block of the array as
  the region found it, at every point, whether the block was fetched there or kept from the point before; the
  output's buffer holds, after the body, the one stored value. The nine argument arrays are no window's array:
  they bypass the region.
-/
import proofs.«176014_j27152783245644_1_alg».proof.Proof.KernelEntry
import proofs.«176014_j27152783245644_1_alg».proof.Proof.LibSharedFrame
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
not fetched the block index has not moved and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The nine argument arrays are staged by no window, so the run's post says each ends as the region found it,
    which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev r64 : Rect S64x128 := Rect.unit (s := S64x128) ![0, 0] S64x128.size Facts₀.inb_S64x128_S64x128_0_0
abbrev r128 : Rect S128x128 := Rect.unit (s := S128x128) ![0, 0] S128x128.size Facts₀.inb_S128x128_S128x128_0_0
abbrev r1x128 : Rect S1x128 := Rect.unit (s := S1x128) ![0, 0] S1x128.size Facts₀.inb_S1x128_S1x128_0_0
abbrev r1x1 : Rect S1x1 := Rect.unit (s := S1x1) ![0, 0] S1x1.size Facts₀.inb_S1x1_S1x1_0_0

/-- The output window's staging buffer after the body, from the eight input blocks: its one store, of the score tile. -/
def out0_8 (x0 : Vec F S64x128 .f32) (x1 : Vec F S128x128 .f32) (x2 : Vec F S64x128 .f32) (x3 : Vec F S128x128 .f32) (x4 : Vec F S128x128 .bf16) (x5 : Vec F S1x128 .f32) (x6 : Vec F S1x128 .f32) (x7 : Vec F S1x1 .f32) : Vec F S64x128 .f32 :=
  View.canon [⟨r64, k0_pay1 (k0_pay2 (View.ld x0 r64) (View.ld x1 r128) (View.ld x4 r128) (View.ld x2 r64) (View.ld x3 r128) (View.ld x5 r1x128)) (k0_pay3 (View.ld x7 r1x1)) (k0_pay4 (View.ld x6 r1x128))⟩]

/-- The one store covers the buffer. -/
theorem cover0_8 (p0 : Vec F S64x128 .f32) (y : S64x128.Idx) :
    ∃ pc ∈ ([⟨r64, p0⟩] : List (View.Piece (Elt F) S64x128 .f32)), y ∈ pc.1.set :=
  View.cover_of_tiled [⟨r64, p0⟩] S64x128.size (by rfl) y

/-! ## The body's triple -/

set_option maxHeartbeats 4000000 in
/-- The body on whole staging memrefs, the inputs' at contents `xW` and the output's at anything, runs to the
    continuation holding the inputs' as they were and the output's at `out0_8` of them. -/
theorem sound_kernel (c : Dev nD) (E : Set ℕ) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S64x128 .f32) (harg10 : arg10.IsWhole)
    (x0 : Vec F S64x128 .f32) (x1 : Vec F S128x128 .f32) (x2 : Vec F S64x128 .f32) (x3 : Vec F S128x128 .f32) (x4 : Vec F S128x128 .bf16) (x5 : Vec F S1x128 .f32) (x6 : Vec F S1x128 .f32) (x7 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data on core `c`: the arrays as the region finds them; after the body at point `t` each input's buffer
    at its block and the output's at `out0_8` of the input blocks; the invariant the core's scoped buffers that are no
    staging buffer; nothing owed; the two windows on the node embeddings at half a share each, the rest whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at entry: one buffer, two readers -/

/-- The eight distinct buffers behind the nine windows, each whole, make the proof data's arrays: the node
    embeddings' buffer is split in two halves, one for each of its windows. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v9) ↦{fullShare} V m c main_v9) ∗ (((c.tc : Thread nD τ).loc main_v14) ↦{fullShare} V m c main_v14) ∗ (((c.tc : Thread nD τ).loc main_v15) ↦{fullShare} V m c main_v15) ∗ (((c.tc : Thread nD τ).loc main_v13) ↦{fullShare} V m c main_v13) ∗ (((c.tc : Thread nD τ).loc main_v16) ↦{fullShare} V m c main_v16) ∗ (((c.tc : Thread nD τ).loc main_v17) ↦{fullShare} V m c main_v17) ∗ (((c.tc : Thread nD τ).loc main_v18) ↦{fullShare} V m c main_v18) ∗ (((c.tc : Thread nD τ).loc main_v19) ↦{fullShare} V m c main_v19)) :=
  bigSep_eq_bigSepL_of_eq [main_v9, main_v14, main_v15, main_v13, main_v16, main_v17, main_v18, main_v19] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Pipeline.arrays_eq_at_shares cfgs (dats m) 0 c arr_whole0, bigSep_W0, arrBufs_eq]
  iintro ⟨H9, H14, H15, H13, H16, H17, H18, H19⟩
  ihave H9 := (pointsTo_share (PosShare.mem_left_op_right fullShare)).1 $$ H9
  icases H9 with ⟨H9a, H9b⟩
  isplitl [H9a]; · iexact H9a
  isplitl [H9b]; · iexact H9b
  isplitl [H14]; · iexact H14
  isplitl [H15]; · iexact H15
  isplitl [H13]; · iexact H13
  isplitl [H16]; · iexact H16
  isplitl [H17]; · iexact H17
  isplitl [H18]; · iexact H18
  iexact H19

/-! ## The run and the frame -/

set_option backward.isDefEq.respectTransparency.types false in
/-- From any memory with zero counters every weakly fair execution of @main terminates, every window's array at what
    the proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Hand

end
-- ==== Proof.KernelIdealEntry.lean ====
/-
  The program up to its one kernel region: the host lines that come before it (the node encoder's two
  layers, the three bands of the first decoder weight, the two precomputed contractions, three reshapes),
  run as one straight line, and what each array holds when the region is entered. The nine argument arrays
  are written by no host line, so the region finds them as launched.
-/
import proofs.«176014_j27152783245644_1_alg».proof.Proof.Gen.KernelIdeal.Launch
import proofs.«176014_j27152783245644_1_alg».proof.Proof.Gen.KernelIdeal.Skeleton
import proofs.«176014_j27152783245644_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Facts₀ Cert.KernelIdeal.Facts

variable {F : FTy → Type} [FloatOps F]

variable (m : (ℓ : Loc nD τ sig) → Buf (Elt F) ℓ) (ρ : Dev nD → PrngReg)

/-- Core `c`'s arrays when the region is entered: the launch contents after the host lines. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KernelIdealFrame.lean ====
/-
  The kernel region of the pairwise decoder: it runs to the end on every core, faults nowhere, and leaves the
  argument arrays as they were.

  The region's grid is 8 x 4 points; at point (a, b) the body reads the 64 embedding rows of tile a and the
  128 embedding rows of tile b — two windows on ONE array, the node embeddings —, the matching rows of the two
  precomputed contractions, the third band of the first weight (as one whole block), the two biases and the
  second weight, and stores one 64 x 128 tile of scores. The two windows on the embeddings each hold half a
  share of that array: they only read it. Every input window's staging buffer holds its block of the array as
  the region found it, at every point, whether the block was fetched there or kept from the point before; the
  output's buffer holds, after the body, the one stored value. The nine argument arrays are no window's array:
  they bypass the region.
-/
import proofs.«176014_j27152783245644_1_alg».proof.Proof.KernelIdealEntry
import proofs.«176014_j27152783245644_1_alg».proof.Proof.LibSharedFrame
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
not fetched the block index has not moved and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The nine argument arrays are staged by no window, so the run's post says each ends as the region found it,
    which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev r64 : Rect S64x128 := Rect.unit (s := S64x128) ![0, 0] S64x128.size Facts₀.inb_S64x128_S64x128_0_0
abbrev r128 : Rect S128x128 := Rect.unit (s := S128x128) ![0, 0] S128x128.size Facts₀.inb_S128x128_S128x128_0_0
abbrev r1x128 : Rect S1x128 := Rect.unit (s := S1x128) ![0, 0] S1x128.size Facts₀.inb_S1x128_S1x128_0_0
abbrev r1x1 : Rect S1x1 := Rect.unit (s := S1x1) ![0, 0] S1x1.size Facts₀.inb_S1x1_S1x1_0_0

/-- The output window's staging buffer after the body, from the eight input blocks: its one store, of the score tile. -/
def out0_8 (x0 : Vec F S64x128 .f32) (x1 : Vec F S128x128 .f32) (x2 : Vec F S64x128 .f32) (x3 : Vec F S128x128 .f32) (x4 : Vec F S128x128 .bf16) (x5 : Vec F S1x128 .f32) (x6 : Vec F S1x128 .f32) (x7 : Vec F S1x1 .f32) : Vec F S64x128 .f32 :=
  View.canon [⟨r64, k0_pay1 (k0_pay2 (View.ld x0 r64) (View.ld x1 r128) (View.ld x4 r128) (View.ld x2 r64) (View.ld x3 r128) (View.ld x5 r1x128)) (k0_pay3 (View.ld x7 r1x1)) (k0_pay4 (View.ld x6 r1x128))⟩]

/-- The one store covers the buffer. -/
theorem cover0_8 (p0 : Vec F S64x128 .f32) (y : S64x128.Idx) :
    ∃ pc ∈ ([⟨r64, p0⟩] : List (View.Piece (Elt F) S64x128 .f32)), y ∈ pc.1.set :=
  View.cover_of_tiled [⟨r64, p0⟩] S64x128.size (by rfl) y

/-! ## The body's triple -/

set_option maxHeartbeats 4000000 in
/-- The body on whole staging memrefs, the inputs' at contents `xW` and the output's at anything, runs to the
    continuation holding the inputs' as they were and the output's at `out0_8` of them. -/
theorem sound_kernel (c : Dev nD) (E : Set ℕ) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S64x128 .f32) (harg10 : arg10.IsWhole)
    (x0 : Vec F S64x128 .f32) (x1 : Vec F S128x128 .f32) (x2 : Vec F S64x128 .f32) (x3 : Vec F S128x128 .f32) (x4 : Vec F S128x128 .bf16) (x5 : Vec F S1x128 .f32) (x6 : Vec F S1x128 .f32) (x7 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data on core `c`: the arrays as the region finds them; after the body at point `t` each input's buffer
    at its block and the output's at `out0_8` of the input blocks; the invariant the core's scoped buffers that are no
    staging buffer; nothing owed; the two windows on the node embeddings at half a share each, the rest whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at entry: one buffer, two readers -/

/-- The eight distinct buffers behind the nine windows, each whole, make the proof data's arrays: the node
    embeddings' buffer is split in two halves, one for each of its windows. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v9) ↦{fullShare} V m c main_v9) ∗ (((c.tc : Thread nD τ).loc main_v14) ↦{fullShare} V m c main_v14) ∗ (((c.tc : Thread nD τ).loc main_v15) ↦{fullShare} V m c main_v15) ∗ (((c.tc : Thread nD τ).loc main_v13) ↦{fullShare} V m c main_v13) ∗ (((c.tc : Thread nD τ).loc main_v16) ↦{fullShare} V m c main_v16) ∗ (((c.tc : Thread nD τ).loc main_v17) ↦{fullShare} V m c main_v17) ∗ (((c.tc : Thread nD τ).loc main_v18) ↦{fullShare} V m c main_v18) ∗ (((c.tc : Thread nD τ).loc main_v19) ↦{fullShare} V m c main_v19)) :=
  bigSep_eq_bigSepL_of_eq [main_v9, main_v14, main_v15, main_v13, main_v16, main_v17, main_v18, main_v19] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Pipeline.arrays_eq_at_shares cfgs (dats m) 0 c arr_whole0, bigSep_W0, arrBufs_eq]
  iintro ⟨H9, H14, H15, H13, H16, H17, H18, H19⟩
  ihave H9 := (pointsTo_share (PosShare.mem_left_op_right fullShare)).1 $$ H9
  icases H9 with ⟨H9a, H9b⟩
  isplitl [H9a]; · iexact H9a
  isplitl [H9b]; · iexact H9b
  isplitl [H14]; · iexact H14
  isplitl [H15]; · iexact H15
  isplitl [H13]; · iexact H13
  isplitl [H16]; · iexact H16
  isplitl [H17]; · iexact H17
  isplitl [H18]; · iexact H18
  iexact H19

/-! ## The run and the frame -/

set_option backward.isDefEq.respectTransparency.types false in
/-- From any memory with zero counters every weakly fair execution of @main terminates, every window's array at what
    the proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Hand

end
-- ==== Proof.PayloadAt.lean ====
import proofs.«176014_j27152783245644_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.PayloadAt
open Idealize.ShloMosaic Idealize.ShloMosaic.ValueIdx Cert.KernelIdeal Cert.KernelIdeal.Gen
open Cert.KernelIdeal.Facts₀ Cert.KernelIdeal.Facts

/-! ## The layout steps, each read at coordinates

Every reshape of the body keeps the row-major position, and every broadcast repeats its operand along the axes
where the operand has extent one. Read at a triple `(p, q, d)` — row `p` of the row tile, row `q` of the
column tile, lane `d` — each of them is the operand at the coordinates it keeps. -/

section Layout
variable {α : Type}

/-- A `[64, 128]` array viewed `[64, 1, 128]` reads, at `(p, u, d)`, the operand at `(p, d)`. -/
theorem cast_rows_mid (v : S64x128.Idx → α) (h : S64x128.ShapeCasts S64x1x128) (p : Fin 64) (u : Fin 1) (d : Fin 128) :
    shapeCast S64x1x128 v h (ix3 p u d) = v (ix2 p d) :=
  shapeCast_apply v h _ _ (by
    have hu : u.val = 0 := by omega
    rw [Shape.rowMajor_val_three, Shape.rowMajor_val_two]
    show p.val * 128 + d.val = (p.val * 1 + u.val) * 128 + d.val
    rw [hu]; omega)

/-- A `[64, 1, 128]` array repeated along its middle axis reads, at `(p, q, d)`, the operand at `(p, 0, d)`. -/
theorem bcast_rows (v : S64x1x128.Idx → α) (h : S64x1x128.Broadcasts S64x128x128) (p : Fin 64) (q d : Fin 128) :
    broadcastTo S64x128x128 v h (ix3 p q d) = v (ix3 p (0 : Fin 1) d) := by
  refine broadcastTo_apply v h (ix3 p q d) (ix3 p (0 : Fin 1) d) fun ax => ?_
  match ax with
  | ⟨0, _⟩ => rfl
  | ⟨1, _⟩ => rfl
  | ⟨2, _⟩ => rfl

/-- A `[1, 128, 128]` array repeated along its leading axis reads, at `(p, q, d)`, the operand at `(0, q, d)`. -/
theorem bcast_cols (v : S1x128x128.Idx → α) (h : S1x128x128.Broadcasts S64x128x128) (p : Fin 64) (q d : Fin 128) :
    broadcastTo S64x128x128 v h (ix3 p q d) = v (ix3 (0 : Fin 1) q d) := by
  refine broadcastTo_apply v h (ix3 p q d) (ix3 (0 : Fin 1) q d) fun ax => ?_
  match ax with
  | ⟨0, _⟩ => rfl
  | ⟨1, _⟩ => rfl
  | ⟨2, _⟩ => rfl

/-- A `[128]` vector viewed `[1, 1, 128]` reads, at `(u, w, d)`, the operand at `d`. -/
theorem cast_lane_11 (v : S128.Idx → α) (h : S128.ShapeCasts S1x1x128) (u w : Fin 1) (d : Fin 128) :
    shapeCast S1x1x128 v h (ix3 u w d) = v (ix1 d) :=
  shapeCast_apply v h _ _ (by
    have hu : u.val = 0 := by omega
    have hw : w.val = 0 := by omega
    rw [Shape.rowMajor_val_three, Shape.rowMajor_val_one]
    show d.val = (u.val * 1 + w.val) * 128 + d.val
    rw [hu, hw]; omega)

/-- A `[1, 1, 128]` array repeated along its two leading axes reads, at `(p, q, d)`, the operand at `(0, 0, d)`. -/
theorem bcast_lane (v : S1x1x128.Idx → α) (h : S1x1x128.Broadcasts S64x128x128) (p : Fin 64) (q d : Fin 128) :
    broadcastTo S64x128x128 v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ => rfl

/-- Row `p * 128 + q` of the flattened `[8192, 128]` array. -/
abbrev flat (p : Fin 64) (q : Fin 128) : Fin 8192 := ⟨p.val * 128 + q.val, by have := p.isLt; have := q.isLt; omega⟩

/-- A `[64, 128, 128]` array flattened to `[8192, 128]` reads, at row `p * 128 + q` and lane `k`, the operand at `(p, q, k)`. -/
theorem cast_flatten (v : S64x128x128.Idx → α) (h : S64x128x128.ShapeCasts S8192x128) (p : Fin 64) (q k : Fin 128) :
    shapeCast S8192x128 v h (ix2 (flat p q) k) = v (ix3 p q k) :=
  shapeCast_apply v h _ _ (by
    rw [Shape.rowMajor_val_three, Shape.rowMajor_val_two]
    rfl)

/-- An `[8192, 128]` array split to `[64, 128, 128]` reads, at `(p, q, d)`, the operand at row `p * 128 + q`, lane `d`. -/
theorem cast_unflatten (v : S8192x128.Idx → α) (h : S8192x128.ShapeCasts S64x128x128) (p : Fin 64) (q d : Fin 128) :
    shapeCast S64x128x128 v h (ix3 p q d) = v (ix2 (flat p q) d) :=
  shapeCast_apply v h _ _ (by
    rw [Shape.rowMajor_val_three, Shape.rowMajor_val_two]
    rfl)

end Layout

/-! ## The two contractions

The lane sum is the sum over the last coordinate; the product of the flattened `[8192, 128]` array with a
`[128, 128]` matrix into a zero accumulator is, at row `r` and lane `d`, the sum over the shared coordinate. -/

/-- A lane sum of a `[64, 128, 128]` array reads, at `(p, q)`, the sum over `d` of the operand at `(p, q, d)`. -/
theorem lane_sum (src : FVec Ideal S64x128x128 .f32) (h : S64x128x128.Reduces [2] S64x128) (hφ : FKind.Formats .f32)
    (hacc : (0x00000000#32 : BitVec 32) = 0x00000000#32) (p : Fin 64) (q : Fin 128) :
    multiReduction (F := Ideal) .add [2] S64x128 src 0x00000000#32 h hφ hacc (ix2 p q) = ∑ d : Fin 128, src (ix3 p q d) := by
  refine (Ideal.multiReduction_add_single src 0x00000000#32 h hφ hacc (ix2 p q)).trans ?_
  refine Finset.sum_congr rfl fun d _ => congrArg src (funext fun c => Fin.ext ?_)
  match c with
  | ⟨0, _⟩ => rfl
  | ⟨1, _⟩ => rfl
  | ⟨2, _⟩ => rfl

/-- The left operand's row coordinate is the output's row. -/
theorem lhs_flat_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left operand's lane coordinate is the contracted coordinate. -/
theorem lhs_flat_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row coordinate is the contracted coordinate. -/
theorem rhs_flat_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's lane coordinate is the output's lane. -/
theorem rhs_flat_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product into a zero accumulator reads, at row `r` and lane `d`, `∑ k, L (r, k) * R (k, d)`. -/
theorem matmul_at (L : FVec Ideal S8192x128 .bf16) (R : FVec Ideal S128x128 .bf16) (r : Fin 8192) (d : Fin 128) :
    matmul (F := Ideal) dot_S8192x128_S128x128_S8192x128_1_0_0_1_n_n none L R (constant (F := Ideal) S8192x128 .f32 0x00000000#32) (ix2 r d)
      = ∑ k : Fin 128, L (ix2 r k) * R (ix2 k d) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r d) ((contrEquiv1 dot_S8192x128_S128x128_S8192x128_1_0_0_1_n_n 128 rfl rfl).symm k) = ix2 r k := funext fun a => Fin.ext (by
    match a with
    | ⟨0, _⟩ => exact lhs_flat_0 _ _
    | ⟨1, _⟩ => exact (lhs_flat_1 _ _).trans hk)
  have er : dot_S8192x128_S128x128_S8192x128_1_0_0_1_n_n.rhsIdx (ix2 r d) ((contrEquiv1 dot_S8192x128_S128x128_S8192x128_1_0_0_1_n_n 128 rfl rfl).symm k) = ix2 k d := funext fun a => Fin.ext (by
    match a with
    | ⟨0, _⟩ => exact (rhs_flat_0 _ _).trans hk
    | ⟨1, _⟩ => exact rhs_flat_1 _ _)
  rw [el, er]

/-- The one entry of a `[1, 1]` array. -/
theorem extract_one (v : S1x1.Idx → EReal) (h : ∀ a, (![0, 0] : Fin 2 → Nat) a < S1x1.size a) :
    extractAt ![0, 0] v h = v (ix2 (0 : Fin 1) (0 : Fin 1)) :=
  congrArg v (funext fun a => Fin.ext (by
    match a with
    | ⟨0, _⟩ => rfl
    | ⟨1, _⟩ => rfl))

/-! ## The stored value

With every layout step read at coordinates, the hidden unit at `(p, q, d)` is the rectified sum of the row term,
the column term, the distance contraction and the bias; the stored score at `(p, q)` is its lane sum against the
second weight, plus the second bias. -/

/-- An absolute value at an index is the larger of the element and its negation. -/
theorem absf_at {s : Shape} {φ : FTy} (a : FVec Ideal s φ) (i : s.Idx) : absf a i = max (a i) (-(a i)) := rfl

/-- The rectified hidden unit at `(p, q, d)`. -/
theorem hidden_at (x0 x2 : Vec Ideal S64x128 .f32) (x1 x3 : Vec Ideal S128x128 .f32) (x4 : Vec Ideal S128x128 .bf16)
    (x5 : Vec Ideal S1x128 .f32) (p : Fin 64) (q d : Fin 128) :
    k0_pay2 (F := Ideal) x0 x1 x4 x2 x3 x5 (ix3 p q d)
      = max (((x2 (ix2 p d) + x3 (ix2 q d))
                + (∑ k : Fin 128, max (x0 (ix2 p k) - x1 (ix2 q k)) (-(x0 (ix2 p k) - x1 (ix2 q k))) * x4 (ix2 k d)))
              + x5 (ix2 (0 : Fin 1) d)) 0 := by
  unfold k0_pay2
  rw [maximumf_apply, broadcast_apply, addf_apply, addf_apply, addf_apply,
    bcast_rows, cast_rows_mid, bcast_cols, shapeCast_ab_1ab_apply, cast_unflatten, matmul_at,
    bcast_lane, cast_lane_11, shapeCast_1a_a_apply]
  simp only [shapeCast_self]
  rw [show (FloatOps.ofBits (F := Ideal) .f32 0x00000000#32) = (0 : EReal) from Ideal.ofBits_zero_f32]
  refine congrArg (fun s => max (x2 (ix2 p d) + x3 (ix2 q d) + s + x5 (ix2 (0 : Fin 1) d)) 0) (Finset.sum_congr rfl fun k _ => ?_)
  rw [cast_flatten, absf_at, subf_apply, bcast_rows, cast_rows_mid, truncf_apply, bcast_cols, shapeCast_ab_1ab_apply,
    truncf_apply]

/-- The stored score at `(p, q)`. -/
theorem payload_at (x0 x2 : Vec Ideal S64x128 .f32) (x1 x3 : Vec Ideal S128x128 .f32) (x4 : Vec Ideal S128x128 .bf16)
    (x5 x6 : Vec Ideal S1x128 .f32) (x7 : Vec Ideal S1x1 .f32) (p : Fin 64) (q : Fin 128) :
    k0_pay1 (F := Ideal) (k0_pay2 (F := Ideal) x0 x1 x4 x2 x3 x5) (k0_pay3 (F := Ideal) x7) (k0_pay4 (F := Ideal) x6) (ix2 p q)
      = (∑ d : Fin 128,
          max (((x2 (ix2 p d) + x3 (ix2 q d))
                + (∑ k : Fin 128, max (x0 (ix2 p k) - x1 (ix2 q k)) (-(x0 (ix2 p k) - x1 (ix2 q k))) * x4 (ix2 k d)))
              + x5 (ix2 (0 : Fin 1) d)) 0
            * x6 (ix2 (0 : Fin 1) d))
        + x7 (ix2 (0 : Fin 1) (0 : Fin 1)) := by
  unfold k0_pay1 k0_pay3 k0_pay4
  rw [addf_apply, broadcast_apply, lane_sum, extract_one]
  simp only [shapeCast_self]
  refine congrArg (· + x7 (ix2 (0 : Fin 1) (0 : Fin 1))) (Finset.sum_congr rfl fun d _ => ?_)
  rw [mulf_apply, hidden_at, bcast_lane, cast_lane_11, shapeCast_1a_a_apply]

end Cert.KernelIdeal.PayloadAt
end
-- ==== Proof.PairScore.lean ====
/-
  The pairwise edge score, as one function of the node embeddings and the decoder's weights.

  For nodes `i`, `j` with embeddings `h i`, `h j` (rows of a 512 x 128 array), the decoder's hidden unit `d` is
  the rectified sum of three contractions against the three 128-row bands of the first weight matrix — the row
  of `i` against the first band, the row of `j` against the second, the entrywise distance `|h i - h j|` against
  the third — and the bias; the score is the hidden vector against the second weight column, plus its bias.
  Everything is over the extended reals: only sums, products, `max` and differences appear, so the grouping of
  the three contractions is the only thing a proof has to move.
-/
import Idealize.ShloMosaic.PureOps.Ideal
import Idealize.ShloMosaic.Lib.ValueIdx

noncomputable section

namespace Cert.PairScore

open Idealize.ShloMosaic Idealize.ShloMosaic.ValueIdx

/-- Row `r` of band `b` (0, 1, 2) of a 384-row matrix. -/
abbrev band (b : Fin 3) (k : Fin 128) : Fin 384 := ⟨b.val * 128 + k.val, by have := b.isLt; have := k.isLt; omega⟩

/-- Hidden unit `d` of the pair `(i, j)`: `max (h i · W₀ d + h j · W₁ d + |h i - h j| · W₂ d + b d) 0`,
    `W₀`, `W₁`, `W₂` the three bands of `Wp1`. -/
def hidden (h : (⟨2, ![512, 128]⟩ : Shape).Idx → EReal) (Wp1 : (⟨2, ![384, 128]⟩ : Shape).Idx → EReal)
    (bp1 : (⟨1, ![128]⟩ : Shape).Idx → EReal) (i j : Fin 512) (d : Fin 128) : EReal :=
  max (((∑ k : Fin 128, h (ix2 i k) * Wp1 (ix2 (band 0 k) d))
        + (∑ k : Fin 128, h (ix2 j k) * Wp1 (ix2 (band 1 k) d)))
      + (∑ k : Fin 128, max (h (ix2 i k) - h (ix2 j k)) (-(h (ix2 i k) - h (ix2 j k))) * Wp1 (ix2 (band 2 k) d))
      + bp1 (ix1 d)) 0

/-- The score of the pair `(i, j)`: the hidden vector against the column `Wp2`, plus the bias. -/
def score (h : (⟨2, ![512, 128]⟩ : Shape).Idx → EReal) (Wp1 : (⟨2, ![384, 128]⟩ : Shape).Idx → EReal)
    (bp1 : (⟨1, ![128]⟩ : Shape).Idx → EReal) (Wp2 : (⟨2, ![128, 1]⟩ : Shape).Idx → EReal)
    (bp2 : (⟨1, ![1]⟩ : Shape).Idx → EReal) (i j : Fin 512) : EReal :=
  (∑ d : Fin 128, hidden h Wp1 bp1 i j d * Wp2 (ix2 d (0 : Fin 1))) + bp2 (ix1 (0 : Fin 1))

/-- All the scores, as a 512 x 512 array. -/
def scores (h : (⟨2, ![512, 128]⟩ : Shape).Idx → EReal) (Wp1 : (⟨2, ![384, 128]⟩ : Shape).Idx → EReal)
    (bp1 : (⟨1, ![128]⟩ : Shape).Idx → EReal) (Wp2 : (⟨2, ![128, 1]⟩ : Shape).Idx → EReal)
    (bp2 : (⟨1, ![1]⟩ : Shape).Idx → EReal) : (⟨2, ![512, 512]⟩ : Shape).Idx → EReal :=
  fun ij => score h Wp1 bp1 Wp2 bp2 (ij 0) (ij 1)

end Cert.PairScore

end
-- ==== Proof.EntryValues.lean ====
/-
  What the arrays read by the kernel region hold when the region is entered, over the extended reals, each read
  at one index. The host lines before the region cut the first decoder weight (384 rows) into its three bands of
  128 rows, contract the node embeddings against the first two bands, pass the third band on unchanged (the
  conversion to the narrower float type is the identity over the extended reals), and lay the bias, the second
  weight column and its bias out as rows. So entry (i, d) of the two contractions is the sum over k of the
  embedding's entry (i, k) times the weight's entry (band, k, d); the third band's entry (k, d) is the weight's
  entry at row 256 + k; and the reshaped arrays hold, in row-major order, exactly the entries of their sources.
-/
import proofs.«176014_j27152783245644_1_alg».proof.Proof.KernelIdealEntry
import proofs.«176014_j27152783245644_1_alg».proof.Proof.PairScore
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
noncomputable section
namespace Cert.KernelIdeal.EntryValues
open Idealize.ShloMosaic Idealize.ShloMosaic.TcCoe Idealize.ShloMosaic.ValueIdx Idealize.SL.Sem Cert.KernelIdeal Cert.KernelIdeal.Gen Cert.KernelIdeal.Hand Cert.PairScore
open Cert.KernelIdeal.Facts₀ Cert.KernelIdeal.Facts
variable (m : (ℓ : Loc nD τ sig) → Buf (Elt Ideal) ℓ)

/-! ## The three reshapes and the third band -/

/-- The bias of the first decoder layer, as a one-row matrix: a shape cast of argument 6. -/
theorem v16_term (c : Dev nD) :
    (V m c main_v16 : S1x128.Idx → EReal)
      = shapeCast S1x128 (m ((c : Thread nD τ).loc main_arg6) : S128.Idx → EReal) Facts₀.shapeCasts_S128_S1x128 := by
  dsimp only [V]
  simp only [hostOps0, hostOps0_1, hostOps0_2, hostOps0_3, hostOps0_4, List.flatten_cons, List.flatten_nil, List.append_nil, List.cons_append, List.nil_append]
  after_results
  rfl

/-- Entry (0, d) of the row is entry d of the bias vector. -/
theorem v16_at (c : Dev nD) (d : Fin 128) :
    (V m c main_v16 : S1x128.Idx → EReal) (ix2 (0 : Fin 1) d) = (m ((c : Thread nD τ).loc main_arg6) : S128.Idx → EReal) (ix1 d) := by
  rw [v16_term]
  exact shapeCast_a_1a_apply _ _ _ _

/-- The second decoder weight, a column, laid out as a row: a shape cast of argument 7. -/
theorem v17_term (c : Dev nD) :
    (V m c main_v17 : S1x128.Idx → EReal)
      = shapeCast S1x128 (m ((c : Thread nD τ).loc main_arg7) : S128x1.Idx → EReal) Facts₀.shapeCasts_S128x1_S1x128 := by
  dsimp only [V]
  simp only [hostOps0, hostOps0_1, hostOps0_2, hostOps0_3, hostOps0_4, List.flatten_cons, List.flatten_nil, List.append_nil, List.cons_append, List.nil_append]
  after_results
  rfl

/-- Entry (0, d) of the row is entry (d, 0) of the column: both sit at row-major position d. -/
theorem v17_at (c : Dev nD) (d : Fin 128) :
    (V m c main_v17 : S1x128.Idx → EReal) (ix2 (0 : Fin 1) d) = (m ((c : Thread nD τ).loc main_arg7) : S128x1.Idx → EReal) (ix2 d (0 : Fin 1)) := by
  rw [v17_term]
  refine shapeCast_apply (s := S128x1) (t := S1x128) _ _ _ _ ?_
  rw [Shape.rowMajor_val_two, Shape.rowMajor_val_two]
  show d.val * 1 + 0 = 0 * 128 + d.val
  omega

/-- The second decoder bias, one number, as a 1 x 1 matrix: a shape cast of argument 8. -/
theorem v18_term (c : Dev nD) :
    (V m c main_v18 : S1x1.Idx → EReal)
      = shapeCast S1x1 (m ((c : Thread nD τ).loc main_arg8) : S1.Idx → EReal) Facts₀.shapeCasts_S1_S1x1 := by
  dsimp only [V]
  simp only [hostOps0, hostOps0_1, hostOps0_2, hostOps0_3, hostOps0_4, List.flatten_cons, List.flatten_nil, List.append_nil, List.cons_append, List.nil_append]
  after_results
  rfl

/-- Its one entry is the one entry of the source. -/
theorem v18_at (c : Dev nD) :
    (V m c main_v18 : S1x1.Idx → EReal) (ix2 (0 : Fin 1) (0 : Fin 1)) = (m ((c : Thread nD τ).loc main_arg8) : S1.Idx → EReal) (ix1 (0 : Fin 1)) := by
  rw [v18_term]
  refine shapeCast_apply (s := S1) (t := S1x1) _ _ _ _ ?_
  rw [Shape.rowMajor_val_one, Shape.rowMajor_val_two]
  rfl

/-- The third band of the first decoder weight: rows 256 to 383 of argument 5, converted to the narrower float
    type (over the extended reals the conversion changes nothing). -/
theorem v13_term (c : Dev nD) :
    (V m c main_v13 : S128x128.Idx → EReal)
      = truncf .bf16 (extractStridedSlice S128x128 ![256, 0] (m ((c : Thread nD τ).loc main_arg5) : S384x128.Idx → EReal) Facts₀.slices_S384x128_S128x128_256_0 : FVec Ideal S128x128 .f32) Facts₀.bitsLt_bf16_f32 := by
  dsimp only [V]
  simp only [hostOps0, hostOps0_1, hostOps0_2, hostOps0_3, hostOps0_4, List.flatten_cons, List.flatten_nil, List.append_nil, List.cons_append, List.nil_append]
  after_results

/-- Entry (k, d) of the third band is the weight's entry at row 256 + k, column d. -/
theorem v13_at (c : Dev nD) (k d : Fin 128) :
    (V m c main_v13 : S128x128.Idx → EReal) (ix2 k d) = (m ((c : Thread nD τ).loc main_arg5) : S384x128.Idx → EReal) (ix2 (band 2 k) d) := by
  rw [v13_term, truncf_apply]
  exact slice2_axis0_apply 256 _ _ k d (band 2 k) rfl

/-! ## The last stretch of host lines, read over what the node encoder left

The host lines are five stretches; only the last one (three slices, one conversion, two contractions, three
reshapes) writes the arrays below, and it reads, besides the arguments, only the node embeddings. So the arrays
after the first four stretches are named once, and the last stretch is read over them. -/

/-- Core c's arrays after the first four stretches of host lines (the node encoder). -/
def enc (c : Dev nD) : Valuation τ sig (Elt Ideal) :=
  StableHlo.after hostOps0_3 (StableHlo.after hostOps0_2 (StableHlo.after hostOps0_1 (StableHlo.after hostOps0 (fun b => m (c, b)))))

/-- The arrays at the region's entry are the last stretch run from there. -/
theorem V_last (c : Dev nD) (b : Ref sig .tc) :
    V m c b = StableHlo.after hostOps0_4 (enc m c) (Proc.devRef .tc b) := by
  dsimp only [V, enc]
  simp only [List.flatten_cons, List.flatten_nil, List.append_nil, StableHlo.after_append]

/-- The last stretch does not write the node embeddings. -/
theorem V_main_v9 (c : Dev nD) : V m c main_v9 = enc m c (Proc.devRef .tc main_v9) := by
  rw [V_last]
  exact StableHlo.after_of_forall_not_mem (b := Proc.devRef .tc main_v9) _ _ (List.forall_iff_forall_mem.mp (by
    simp only [hostOps0_4, List.Forall, StableHlo.unary_writes, StableHlo.binary_writes, StableHlo.reshape_writes, Finset.mem_singleton]
    repeat' apply And.intro
    all_goals exact StableHlo.devRef_ne_of_ne (by decide)))

/-- Nor the first decoder weight, which no host line writes. -/
theorem enc_main_arg5 (c : Dev nD) : enc m c (Proc.devRef .tc main_arg5) = m ((c : Thread nD τ).loc main_arg5) := by
  rw [← V_main_arg5 m c, V_last]
  exact (StableHlo.after_of_forall_not_mem (b := Proc.devRef .tc main_arg5) _ _ (List.forall_iff_forall_mem.mp (by
    simp only [hostOps0_4, List.Forall, StableHlo.unary_writes, StableHlo.binary_writes, StableHlo.reshape_writes, Finset.mem_singleton]
    repeat' apply And.intro
    all_goals exact StableHlo.devRef_ne_of_ne (by decide)))).symm

/-- The first contraction: the node embeddings against rows 0 to 127 of the first decoder weight. -/
theorem v14_term (c : Dev nD) :
    (V m c main_v14 : S512x128.Idx → EReal)
      = Host.dotGeneral (F := Ideal) (φ₁ := .f32) (φ₂ := .f32) dot_S512x128_S128x128_S512x128_1_0_0_1_n_n none (V m c main_v9)
          (extractStridedSlice S128x128 ![0, 0] (m ((c : Thread nD τ).loc main_arg5)) Facts₀.slices_S384x128_S128x128_0_0) := by
  rw [V_last m c main_v14, V_main_v9 m c, ← enc_main_arg5 m c]
  generalize enc m c = W
  dsimp only [hostOps0_4]
  after_results

/-! ## The two contractions

The host contraction of a 512 x 128 array with a 128 x 128 array along the first array's columns and the second's
rows: at output index (i, d) and contraction index k the operands are read at (i, k) and at (k, d). -/

theorem lhs_dot_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_dot_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_dot_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_dot_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The contraction read at (i, d): the sum over k of the left operand at (i, k) times the right at (k, d). -/
theorem dot_at (y : FVec Ideal S512x128 .f32) (w : FVec Ideal S128x128 .f32) (i : Fin 512) (d : Fin 128) :
    Host.dotGeneral (F := Ideal) dot_S512x128_S128x128_S512x128_1_0_0_1_n_n none y w (ix2 i d)
      = ∑ k : Fin 128, y (ix2 i k) * w (ix2 k d) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 i d) ((ValueIdx.contrEquiv1 dot_S512x128_S128x128_S512x128_1_0_0_1_n_n 128 rfl rfl).symm k) = ix2 i k := funext fun a => Fin.ext (by
    match a with
    | ⟨0, _⟩ => exact lhs_dot_0 _ _
    | ⟨1, _⟩ => exact (lhs_dot_1 _ _).trans hk)
  have er : dot_S512x128_S128x128_S512x128_1_0_0_1_n_n.rhsIdx (ix2 i d) ((ValueIdx.contrEquiv1 dot_S512x128_S128x128_S512x128_1_0_0_1_n_n 128 rfl rfl).symm k) = ix2 k d := funext fun a => Fin.ext (by
    match a with
    | ⟨0, _⟩ => exact (rhs_dot_0 _ _).trans hk
    | ⟨1, _⟩ => exact rhs_dot_1 _ _)
  rw [el, er]

/-- Entry (i, d) of the first contraction: row i of the node embeddings against column d of the first band. -/
theorem v14_at (c : Dev nD) (i : Fin 512) (d : Fin 128) :
    @Eq EReal ((V m c main_v14 : S512x128.Idx → EReal) (ix2 i d))
      (∑ k : Fin 128, @HMul.hMul EReal EReal EReal _ ((V m c main_v9 : S512x128.Idx → EReal) (ix2 i k))
        ((m ((c : Thread nD τ).loc main_arg5) : S384x128.Idx → EReal) (ix2 (band 0 k) d))) := by
  rw [v14_term, dot_at]
  refine Finset.sum_congr rfl fun k _ => ?_
  rw [slice2_axis0_apply 0 _ _ k d (band 0 k) rfl]

/-- The second contraction: the node embeddings against rows 128 to 255 of the first decoder weight. -/
theorem v15_term (c : Dev nD) :
    (V m c main_v15 : S512x128.Idx → EReal)
      = Host.dotGeneral (F := Ideal) (φ₁ := .f32) (φ₂ := .f32) dot_S512x128_S128x128_S512x128_1_0_0_1_n_n none (V m c main_v9)
          (extractStridedSlice S128x128 ![128, 0] (m ((c : Thread nD τ).loc main_arg5)) Facts₀.slices_S384x128_S128x128_128_0) := by
  rw [V_last m c main_v15, V_main_v9 m c, ← enc_main_arg5 m c]
  generalize enc m c = W
  dsimp only [hostOps0_4]
  after_results

/-- Entry (i, d) of the second contraction: row i of the node embeddings against column d of the second band. -/
theorem v15_at (c : Dev nD) (i : Fin 512) (d : Fin 128) :
    @Eq EReal ((V m c main_v15 : S512x128.Idx → EReal) (ix2 i d))
      (∑ k : Fin 128, @HMul.hMul EReal EReal EReal _ ((V m c main_v9 : S512x128.Idx → EReal) (ix2 i k))
        ((m ((c : Thread nD τ).loc main_arg5) : S384x128.Idx → EReal) (ix2 (band 1 k) d))) := by
  rw [v15_term, dot_at]
  refine Finset.sum_congr rfl fun k _ => ?_
  rw [slice2_axis0_apply 128 _ _ k d (band 1 k) rfl]

end Cert.KernelIdeal.EntryValues
end
-- ==== Proof.KernelIdealValue.lean ====
/-
  What the kernel region leaves in the score array, at the exact instance: the 512 x 512 scores of the
  specification, of the node embeddings as the region finds them and of the decoder's weights as launched.

  Grid point t = (a, b) writes back the 64 x 128 tile at rows 64 a .., columns 128 b ..; entry (p, q) of that
  tile is the body's stored value of the point's input blocks, which are rows 64 a + p and 128 b + q of the
  embeddings and of the two precomputed contractions, and the whole of the third weight band, the biases and
  the second weight. Read through what the host lines before the region put into those arrays, it is the
  specification's score of the pair (64 a + p, 128 b + q). The 32 tiles cover the array.
-/
import proofs.«176014_j27152783245644_1_alg».proof.Proof.KernelIdealFrame
import proofs.«176014_j27152783245644_1_alg».proof.Proof.PayloadAt
import proofs.«176014_j27152783245644_1_alg».proof.Proof.EntryValues
import proofs.«176014_j27152783245644_1_alg».proof.Proof.PairScore
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.KernelIdeal.PayloadAt Cert.KernelIdeal.EntryValues Cert.PairScore
open Idealize.ShloMosaic Idealize.ShloMosaic.TcCoe Idealize.ShloMosaic.ValueIdx
open Idealize.SL.Sem
open Idealize.ShloMosaic.Pipeline (Dat Cfg Window)
open Cert.KernelIdeal.Facts₀ Cert.KernelIdeal.Facts

variable (m : (ℓ : Loc nD τ sig) → Buf (Elt Ideal) ℓ) (ρ : Dev nD → PrngReg)

theorem hz : (![0, 0] : Fin 2 → Nat) = fun _ => 0 := funext fun a => by fin_cases a <;> rfl

/-- The scores of the embeddings the region finds and the weights as launched. -/
def G (c : Dev nD) : S512x512.Idx → EReal :=
  scores (V m c main_v9 : S512x128.Idx → EReal) (m ((c : Thread nD τ).loc main_arg5) : S384x128.Idx → EReal)
    (m ((c : Thread nD τ).loc main_arg6) : S128.Idx → EReal) (m ((c : Thread nD τ).loc main_arg7) : S128x1.Idx → EReal)
    (m ((c : Thread nD τ).loc main_arg8) : S1.Idx → EReal)

/-- The index maps over the grid: the row-tile windows move with the output's row block, the column-tile windows
    with its column block, the resident windows stay at block 0; the output's block indices stay in range. -/
theorem idx_facts : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = win0_8.index t (0 : Fin 2) ∧ win0_2.index t (1 : Fin 2) = 0
    ∧ win0_3.index t (0 : Fin 2) = win0_8.index t (1 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 7 ∧ win0_8.index t (1 : Fin 2) ≤ 3 :=
  (by decide +kernel : ∀ t : Fin grid0.N, _)

/-- Every tile is some point's. -/
theorem idx_onto : ∀ (q0 : Fin 8) (q1 : Fin 4), ∃ t : Fin cfg0.N, win0_8.index t = ![q0.val, q1.val] :=
  (by decide +kernel : ∀ (q0 : Fin 8) (q1 : Fin 4), ∃ t : Fin grid0.N, win0_8.index t = ![q0.val, q1.val])

/-- Row `64 a + p` of a 512-row array, `a` the output's row block at `t`. -/
def rowOf (t : Fin cfg0.N) (p : Fin 64) : Fin 512 :=
  ⟨win0_8.index t (0 : Fin 2) * 64 + p.val, by have := (idx_facts t).2.2.2.2.2.2.2.2.2.2.2.2.2.2.2.2.1; have := p.isLt; omega⟩
/-- Row `128 b + q`, `b` the output's column block at `t`. -/
def colOf (t : Fin cfg0.N) (q : Fin 128) : Fin 512 :=
  ⟨win0_8.index t (1 : Fin 2) * 128 + q.val, by have := (idx_facts t).2.2.2.2.2.2.2.2.2.2.2.2.2.2.2.2.2; have := q.isLt; omega⟩

/-! ## The input blocks, read at an entry -/

theorem blk0_at (c : Dev nD) (t : Fin cfg0.N) (p : Fin 64) (k : Fin 128) :
    (iblk m c 0 t : S64x128.Idx → EReal) (ix2 p k) = (V m c main_v9 : S512x128.Idx → EReal) (ix2 (rowOf t p) k) := by
  show (V m c main_v9 : S512x128.Idx → EReal) (((cfg0.win 0).blk t).view.emb (ix2 p k)) = _
  congr 1
  obtain ⟨e, e', -⟩ := idx_facts t
  funext a; apply Fin.ext
  match a with
  | ⟨0, _⟩ => show win0_0.index t (0 : Fin 2) * 64 + 1 * p.val = win0_8.index t (0 : Fin 2) * 64 + p.val; omega
  | ⟨1, _⟩ => show win0_0.index t (1 : Fin 2) * 128 + 1 * k.val = k.val; omega

theorem blk1_at (c : Dev nD) (t : Fin cfg0.N) (q : Fin 128) (k : Fin 128) :
    (iblk m c 1 t : S128x128.Idx → EReal) (ix2 q k) = (V m c main_v9 : S512x128.Idx → EReal) (ix2 (colOf t q) k) := by
  show (V m c main_v9 : S512x128.Idx → EReal) (((cfg0.win 1).blk t).view.emb (ix2 q k)) = _
  congr 1
  obtain ⟨-, -, e, e', -⟩ := idx_facts t
  funext a; apply Fin.ext
  match a with
  | ⟨0, _⟩ => show win0_1.index t (0 : Fin 2) * 128 + 1 * q.val = win0_8.index t (1 : Fin 2) * 128 + q.val; omega
  | ⟨1, _⟩ => show win0_1.index t (1 : Fin 2) * 128 + 1 * k.val = k.val; omega

theorem blk2_at (c : Dev nD) (t : Fin cfg0.N) (p : Fin 64) (d : Fin 128) :
    (iblk m c 2 t : S64x128.Idx → EReal) (ix2 p d) = (V m c main_v14 : S512x128.Idx → EReal) (ix2 (rowOf t p) d) := by
  show (V m c main_v14 : S512x128.Idx → EReal) (((cfg0.win 2).blk t).view.emb (ix2 p d)) = _
  congr 1
  obtain ⟨-, -, -, -, e, e', -⟩ := idx_facts t
  funext a; apply Fin.ext
  match a with
  | ⟨0, _⟩ => show win0_2.index t (0 : Fin 2) * 64 + 1 * p.val = win0_8.index t (0 : Fin 2) * 64 + p.val; omega
  | ⟨1, _⟩ => show win0_2.index t (1 : Fin 2) * 128 + 1 * d.val = d.val; omega

theorem blk3_at (c : Dev nD) (t : Fin cfg0.N) (q : Fin 128) (d : Fin 128) :
    (iblk m c 3 t : S128x128.Idx → EReal) (ix2 q d) = (V m c main_v15 : S512x128.Idx → EReal) (ix2 (colOf t q) d) := by
  show (V m c main_v15 : S512x128.Idx → EReal) (((cfg0.win 3).blk t).view.emb (ix2 q d)) = _
  congr 1
  obtain ⟨-, -, -, -, -, -, e, e', -⟩ := idx_facts t
  funext a; apply Fin.ext
  match a with
  | ⟨0, _⟩ => show win0_3.index t (0 : Fin 2) * 128 + 1 * q.val = win0_8.index t (1 : Fin 2) * 128 + q.val; omega
  | ⟨1, _⟩ => show win0_3.index t (1 : Fin 2) * 128 + 1 * d.val = d.val; omega

theorem blk4_at (c : Dev nD) (t : Fin cfg0.N) (k d : Fin 128) :
    (iblk m c 4 t : S128x128.Idx → EReal) (ix2 k d) = (V m c main_v13 : S128x128.Idx → EReal) (ix2 k d) := by
  show (V m c main_v13 : S128x128.Idx → EReal) (((cfg0.win 4).blk t).view.emb (ix2 k d)) = _
  congr 1
  obtain ⟨-, -, -, -, -, -, -, -, e, e', -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * d.val = d.val; omega

theorem blk5_at (c : Dev nD) (t : Fin cfg0.N) (u : Fin 1) (d : Fin 128) :
    (iblk m c 5 t : S1x128.Idx → EReal) (ix2 u d) = (V m c main_v16 : S1x128.Idx → EReal) (ix2 u d) := by
  show (V m c main_v16 : S1x128.Idx → EReal) (((cfg0.win 5).blk t).view.emb (ix2 u d)) = _
  congr 1
  obtain ⟨-, -, -, -, -, -, -, -, -, -, e, e', -⟩ := idx_facts t
  funext a; apply Fin.ext
  match a with
  | ⟨0, _⟩ => show win0_5.index t (0 : Fin 2) * 1 + 1 * u.val = u.val; omega
  | ⟨1, _⟩ => show win0_5.index t (1 : Fin 2) * 128 + 1 * d.val = d.val; omega

theorem blk6_at (c : Dev nD) (t : Fin cfg0.N) (u : Fin 1) (d : Fin 128) :
    (iblk m c 6 t : S1x128.Idx → EReal) (ix2 u d) = (V m c main_v17 : S1x128.Idx → EReal) (ix2 u d) := by
  show (V m c main_v17 : S1x128.Idx → EReal) (((cfg0.win 6).blk t).view.emb (ix2 u d)) = _
  congr 1
  obtain ⟨-, -, -, -, -, -, -, -, -, -, -, -, e, e', -⟩ := idx_facts t
  funext a; apply Fin.ext
  match a with
  | ⟨0, _⟩ => show win0_6.index t (0 : Fin 2) * 1 + 1 * u.val = u.val; omega
  | ⟨1, _⟩ => show win0_6.index t (1 : Fin 2) * 128 + 1 * d.val = d.val; omega

theorem blk7_at (c : Dev nD) (t : Fin cfg0.N) (u w : Fin 1) :
    (iblk m c 7 t : S1x1.Idx → EReal) (ix2 u w) = (V m c main_v18 : S1x1.Idx → EReal) (ix2 u w) := by
  show (V m c main_v18 : S1x1.Idx → EReal) (((cfg0.win 7).blk t).view.emb (ix2 u w)) = _
  congr 1
  obtain ⟨-, -, -, -, -, -, -, -, -, -, -, -, -, -, e, e', -⟩ := idx_facts t
  funext a; apply Fin.ext
  match a with
  | ⟨0, _⟩ => show win0_7.index t (0 : Fin 2) * 1 + 1 * u.val = u.val; omega
  | ⟨1, _⟩ => show win0_7.index t (1 : Fin 2) * 1 + 1 * w.val = w.val; omega

/-! ## One tile -/

/-- Entry `(p, q)` of the tile point `t` stores is the score of the pair `(64 a + p, 128 b + q)`. -/
theorem tile_at (c : Dev nD) (t : Fin cfg0.N) (p : Fin 64) (q : Fin 128) :
    k0_pay1 (F := Ideal) (k0_pay2 (F := Ideal) (iblk m c 0 t) (iblk m c 1 t) (iblk m c 4 t) (iblk m c 2 t) (iblk m c 3 t) (iblk m c 5 t))
        (k0_pay3 (F := Ideal) (iblk m c 7 t)) (k0_pay4 (F := Ideal) (iblk m c 6 t)) (ix2 p q)
      = G m c (ix2 (rowOf t p) (colOf t q)) := by
  refine (payload_at (iblk m c 0 t) (iblk m c 2 t) (iblk m c 1 t) (iblk m c 3 t) (iblk m c 4 t) (iblk m c 5 t) (iblk m c 6 t) (iblk m c 7 t) p q).trans ?_
  show _ = score _ _ _ _ _ (rowOf t p) (colOf t q)
  unfold Cert.PairScore.score Cert.PairScore.hidden
  simp only [blk0_at, blk1_at, blk2_at, blk3_at, blk4_at, blk5_at, blk6_at, blk7_at]
  have e13 : ∀ k d : Fin 128, (V m c main_v13 : S128x128.Idx → EReal) (ix2 k d)
      = (m ((c : Thread nD τ).loc main_arg5) : S384x128.Idx → EReal) (ix2 (band 2 k) d) := fun k d => v13_at m c k d
  refine congrArg₂ (fun a b : EReal => a + b) (Finset.sum_congr rfl fun d _ => ?_) (v18_at m c)
  rw [v14_at m c (rowOf t p) d, v15_at m c (colOf t q) d, v16_at m c d, v17_at m c d]
  simp only [e13]

/-- What point `t` writes back is block `t` of the scores. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  unfold out0_8
  rw [View.canon_unit_zero hz]
  simp only [View.ld_unit_zero (S := S64x128) hz, View.ld_unit_zero (S := S128x128) hz, View.ld_unit_zero (S := S1x128) hz,
    View.ld_unit_zero (S := S1x1) hz]
  funext j
  obtain ⟨p, q, rfl⟩ : ∃ (p : Fin 64) (q : Fin 128), j = ix2 p q := ⟨j 0, j 1, eq_ix2 j⟩
  refine (tile_at m c t p q).trans ?_
  show G m c _ = G m c (((cfg0.win 8).blk t).view.emb (ix2 p q))
  congr 1
  funext a; apply Fin.ext
  match a with
  | ⟨0, _⟩ => show win0_8.index t (0 : Fin 2) * 64 + p.val = win0_8.index t (0 : Fin 2) * 64 + 1 * p.val; omega
  | ⟨1, _⟩ => show win0_8.index t (1 : Fin 2) * 128 + q.val = win0_8.index t (1 : Fin 2) * 128 + 1 * q.val; omega

/-- An index of the array is in point `t`'s tile iff each coordinate is in the tile's range. -/
theorem mem_blk (t : Fin cfg0.N) (i : S512x512.Idx) :
    i ∈ ((cfg0.win 8).blk t).view.set ↔ ∀ a : Fin 2, win0_8.index t a * S64x128.size a ≤ (i a).val ∧ (i a).val < win0_8.index t a * S64x128.size a + S64x128.size a := by
  show i ∈ ((View.whole main_v19).slice (win0_8.rect t)).set ↔ _
  rw [View.set_slice_whole, Rect.mem_set_unit]
  exact Iff.rfl

/-- The tiles cover the array: entry `(r, s)` is in the tile of the point with blocks `(r / 64, s / 128)`. -/
theorem cover (i : S512x512.Idx) : ∃ t : Fin cfg0.N, (cfg0.win 8).flush t = true ∧ i ∈ ((cfg0.win 8).blk t).view.set := by
  have hi0 : (i 0).val < 512 := (i 0).isLt
  have hi1 : (i 1).val < 512 := (i 1).isLt
  obtain ⟨t, ht⟩ := idx_onto ⟨(i 0).val / 64, by omega⟩ ⟨(i 1).val / 128, by omega⟩
  have q0 : win0_8.index t (0 : Fin 2) = (i 0).val / 64 := congrFun ht 0
  have q1 : win0_8.index t (1 : Fin 2) = (i 1).val / 128 := congrFun ht 1
  refine ⟨t, flush0_8 t, ?_⟩
  rw [mem_blk]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 128 ≤ (i 1).val ∧ (i 1).val < win0_8.index t (1 : Fin 2) * 128 + 128; omega

/-- The score array after the run. -/
theorem final (c : Dev nD) : (dats m 0 c).arrAt 8 cfg0.N = G m c :=
  (dats m 0 c).arrAt_eq_of_cover 8 (G m c) (fun t _ => flushed_eq m c t) cover

/-- The run, read: the result array at the scores, the arguments unchanged. -/
theorem run : θ_run defs (onTc (τ := τ) (main (F := Ideal))) ⟨m, fun _ => 0, ρ⟩ fun r => ∀ c : Dev nD,
      r.2.mem ((c.tc : Thread nD τ).loc main_v19) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.HandValue

end
-- ==== Proof.RefScore.lean ====
import proofs.«176014_j27152783245644_1_alg».proof.Proof.Gen.ReferenceIdeal.Read
import proofs.«176014_j27152783245644_1_alg».proof.Proof.PairScore
import Idealize.ShloMosaic.Lib.ValueIdx
import Idealize.ShloMosaic.Lib.Pipeline.Value
import Idealize.ShloMosaic.PureOps.Ideal.Laws
import Mathlib.Algebra.BigOperators.Fin
noncomputable section
namespace Cert.ReferenceIdeal.RefScore
open Idealize.ShloMosaic Idealize.ShloMosaic.ValueIdx Cert.ReferenceIdeal Cert.ReferenceIdeal.Read
variable [Cert.ReferenceIdeal.Facts]
open Cert.ReferenceIdeal.Facts₀ Cert.ReferenceIdeal.Facts

/-!
  The reference's result is the pairwise edge score of the specification.

  The reference joins, along the last axis, the embedding of node `i` (broadcast over `j`), the embedding of node `j`
  (broadcast over `i`) and their entrywise distance, into 384 features per pair, and contracts the 384 features against
  the first weight matrix. The specification contracts each of the three 128-row bands of that matrix on its own. The
  two agree because a sum over 384 terms is the sum of its three runs of 128 — additive regrouping, which holds in any
  commutative additive monoid and so in the extended reals with no finiteness assumption. Everything else is reading
  each operation at an index: the broadcasts, the subtraction and absolute value, the joined array at a row of band
  `b`, the bias, the rectification against the zero constant, the second contraction, its bias, and the final reshape
  of `[512, 512, 1]` to `[512, 512]`. The node embeddings themselves stay a closed term throughout.
-/

open Cert.PairScore in
/-- A sum over the 384 rows is the sum of its three runs of 128, in any commutative additive monoid. -/
theorem sum_three_bands {M : Type*} [AddCommMonoid M] (f : Fin 384 → M) :
    ∑ c : Fin 384, f c
      = ((∑ k : Fin 128, f (band 0 k)) + ∑ k : Fin 128, f (band 1 k)) + ∑ k : Fin 128, f (band 2 k) := by
  have h1 := Fin.sum_univ_add (a := 128 + 128) (b := 128) f
  have h2 := Fin.sum_univ_add (a := 128) (b := 128) (fun i : Fin (128 + 128) => f (Fin.castAdd 128 i))
  rw [h2] at h1
  refine h1.trans (congrArg₂ (· + ·) (congrArg₂ (· + ·) ?_ ?_) ?_)
  · refine Finset.sum_congr rfl fun k _ => congrArg f (Fin.ext ?_)
    show k.val = 0 * 128 + k.val
    omega
  · refine Finset.sum_congr rfl fun k _ => congrArg f (Fin.ext ?_)
    show 128 + k.val = 1 * 128 + k.val
    omega
  · refine Finset.sum_congr rfl fun k _ => congrArg f (Fin.ext ?_)
    show 128 + 128 + k.val = 2 * 128 + k.val
    omega

section
variable (x0 : (⟨S512x595, .f32⟩ : BufTy).Contents (Elt Ideal)) (x1 : (⟨S595x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal))

/-- The row broadcast of the embeddings at `(i, j, k)` is the embedding of node `i` at `k`. -/
theorem rows_at (i j : Fin 512) (k : Fin 128) :
    val_main_v11 (F := Ideal) x0 x1 x2 x3 x4 (ix3 i j k) = val_main_v9 (F := Ideal) x0 x1 x2 x3 x4 (ix2 i k) := by
  rw [val_main_v11_apply, val_main_v10_apply]
  exact congrArg _ (funext fun a => Fin.ext (by match a with | ⟨0, _⟩ => rfl | ⟨1, _⟩ => rfl))

/-- The column broadcast of the embeddings at `(i, j, k)` is the embedding of node `j` at `k`. -/
theorem cols_at (i j : Fin 512) (k : Fin 128) :
    val_main_v13 (F := Ideal) x0 x1 x2 x3 x4 (ix3 i j k) = val_main_v9 (F := Ideal) x0 x1 x2 x3 x4 (ix2 j k) := by
  rw [val_main_v13_apply, val_main_v12_apply]
  exact congrArg _ (funext fun a => Fin.ext (by match a with | ⟨0, _⟩ => rfl | ⟨1, _⟩ => rfl))

/-- The entrywise distance at `(i, j, k)`. -/
theorem dist_at (i j : Fin 512) (k : Fin 128) :
    val_main_v15 (F := Ideal) x0 x1 x2 x3 x4 (ix3 i j k)
      = max (val_main_v9 (F := Ideal) x0 x1 x2 x3 x4 (ix2 i k) - val_main_v9 (F := Ideal) x0 x1 x2 x3 x4 (ix2 j k))
          (-(val_main_v9 (F := Ideal) x0 x1 x2 x3 x4 (ix2 i k) - val_main_v9 (F := Ideal) x0 x1 x2 x3 x4 (ix2 j k))) := by
  rw [val_main_v15_apply, val_main_v14_apply, rows_at, cols_at, Ideal.hostAbsf_def, Ideal.absf_def, Ideal.subf_def]

/-- The joined array, at row `k` of the first band of its last axis, is the row broadcast at `k`. -/
theorem joined_band0 (i j : Fin 512) (k : Fin 128) :
    val_main_v16 (F := Ideal) x0 x1 x2 x3 x4 (ix3 i j (Cert.PairScore.band 0 k))
      = val_main_v11 (F := Ideal) x0 x1 x2 x3 x4 (ix3 i j k) := by
  unfold val_main_v16
  exact concatenate_apply_piece (2 : Fin S512x512x384.rank) _ _ (ix3 i j (Cert.PairScore.band 0 k)) 0 (by show (0 : Nat) < 3; omega)
    S512x512x128 (val_main_v11 (F := Ideal) x0 x1 x2 x3 x4) rfl rfl 0 rfl (ix3 i j k)
    (fun b hb => match b, hb with
      | ⟨0, _⟩, _ => rfl
      | ⟨1, _⟩, _ => rfl
      | ⟨2, _⟩, hb => absurd rfl hb)
    (by show 0 + k.val = 0 * 128 + k.val; omega)

/-- The joined array, at row `k` of the second band, is the column broadcast at `k`. -/
theorem joined_band1 (i j : Fin 512) (k : Fin 128) :
    val_main_v16 (F := Ideal) x0 x1 x2 x3 x4 (ix3 i j (Cert.PairScore.band 1 k))
      = val_main_v13 (F := Ideal) x0 x1 x2 x3 x4 (ix3 i j k) := by
  unfold val_main_v16
  exact concatenate_apply_piece (2 : Fin S512x512x384.rank) _ _ (ix3 i j (Cert.PairScore.band 1 k)) 1 (by show (1 : Nat) < 3; omega)
    S512x512x128 (val_main_v13 (F := Ideal) x0 x1 x2 x3 x4) rfl rfl 128 rfl (ix3 i j k)
    (fun b hb => match b, hb with
      | ⟨0, _⟩, _ => rfl
      | ⟨1, _⟩, _ => rfl
      | ⟨2, _⟩, hb => absurd rfl hb)
    (by show 128 + k.val = 1 * 128 + k.val; omega)

/-- The joined array, at row `k` of the third band, is the entrywise distance at `k`. -/
theorem joined_band2 (i j : Fin 512) (k : Fin 128) :
    val_main_v16 (F := Ideal) x0 x1 x2 x3 x4 (ix3 i j (Cert.PairScore.band 2 k))
      = val_main_v15 (F := Ideal) x0 x1 x2 x3 x4 (ix3 i j k) := by
  unfold val_main_v16
  exact concatenate_apply_piece (2 : Fin S512x512x384.rank) _ _ (ix3 i j (Cert.PairScore.band 2 k)) 2 (by show (2 : Nat) < 3; omega)
    S512x512x128 (val_main_v15 (F := Ideal) x0 x1 x2 x3 x4) rfl rfl 256 rfl (ix3 i j k)
    (fun b hb => match b, hb with
      | ⟨0, _⟩, _ => rfl
      | ⟨1, _⟩, _ => rfl
      | ⟨2, _⟩, hb => absurd rfl hb)
    (by show 256 + k.val = 2 * 128 + k.val; omega)

section
variable (x5 : (⟨S384x128, .f32⟩ : BufTy).Contents (Elt Ideal)) (x6 : (⟨S128, .f32⟩ : BufTy).Contents (Elt Ideal))

/-- The first contraction at `(i, j, d)`: the sum over the 384 joined rows, regrouped into the three bands, each band
    read from the piece of the joined array that fills it. -/
theorem contract_at (i j : Fin 512) (d : Fin 128) :
    val_main_v17 (F := Ideal) x0 x1 x2 x3 x4 x5 (ix3 i j d)
      = ((∑ k : Fin 128, val_main_v9 (F := Ideal) x0 x1 x2 x3 x4 (ix2 i k) * x5 (ix2 (Cert.PairScore.band 0 k) d))
          + ∑ k : Fin 128, val_main_v9 (F := Ideal) x0 x1 x2 x3 x4 (ix2 j k) * x5 (ix2 (Cert.PairScore.band 1 k) d))
        + ∑ k : Fin 128,
            max (val_main_v9 (F := Ideal) x0 x1 x2 x3 x4 (ix2 i k) - val_main_v9 (F := Ideal) x0 x1 x2 x3 x4 (ix2 j k))
                (-(val_main_v9 (F := Ideal) x0 x1 x2 x3 x4 (ix2 i k) - val_main_v9 (F := Ideal) x0 x1 x2 x3 x4 (ix2 j k)))
              * x5 (ix2 (Cert.PairScore.band 2 k) d) := by
  have el : ∀ c : Fin 384, lidx_main_v17 (ix3 i j d) c = ix3 i j c := fun c =>
    funext fun a => Fin.ext (by match a with | ⟨0, _⟩ => rfl | ⟨1, _⟩ => rfl | ⟨2, _⟩ => rfl)
  have er : ∀ c : Fin 384, ridx_main_v17 (ix3 i j d) c = ix2 c d := fun c =>
    funext fun a => Fin.ext (by match a with | ⟨0, _⟩ => rfl | ⟨1, _⟩ => rfl)
  rw [val_main_v17_apply, sum_three_bands]
  simp only [el, er, joined_band0, joined_band1, joined_band2, rows_at, cols_at, dist_at]

/-- The rectified hidden unit `d` of the pair `(i, j)` is the specification's. -/
theorem hidden_at (i j : Fin 512) (d : Fin 128) :
    val_main_v21 (F := Ideal) x0 x1 x2 x3 x4 x5 x6 (ix3 i j d)
      = Cert.PairScore.hidden (val_main_v9 (F := Ideal) x0 x1 x2 x3 x4) x5 x6 i j d := by
  have eb : idx_main_v18 (idx_main_v19 (ix3 i j d)) = ix1 d :=
    funext fun a => Fin.ext (by match a with | ⟨0, _⟩ => rfl)
  rw [val_main_v21_apply, val_main_v20_apply, contract_at, val_main_v19_apply, val_main_v18_apply,
    val_main_call2_v0_apply, val_main_call2_cst_apply, eb, Ideal.maximumf_def, Ideal.addf_def, Ideal.ofBits_def,
    Ideal.ofBits_zero_f32]
  rfl

end

end

/-- The reference's result, as one function of the node embeddings and the decoder's weights, is the array of
    pairwise scores. -/
theorem ref_is_scores (x0 : (⟨S512x595, .f32⟩ : BufTy).Contents (Elt Ideal)) (x1 : (⟨S595x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S384x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) :
    val_main_v26 (F := Ideal) x0 x1 x2 x3 x4 x5 x6 x7 x8
      = Cert.PairScore.scores (val_main_v9 (F := Ideal) x0 x1 x2 x3 x4) x5 x6 x7 x8 := by
  funext ij
  obtain ⟨i, j, rfl⟩ : ∃ (i j : Fin 512), ij = ix2 i j := ⟨ij 0, ij 1, eq_ix2 ij⟩
  have hi := i.isLt
  have hj := j.isLt
  have el : ∀ d : Fin 128, lidx_main_v22 (idx_main_v26 (ix2 i j)) d = ix3 i j d := fun d =>
    funext fun a => Fin.ext (by
      match a with
      | ⟨0, _⟩ => show (i.val * 512 + j.val) / 512 = i.val; omega
      | ⟨1, _⟩ => show (i.val * 512 + j.val) / 1 % 512 = j.val; omega
      | ⟨2, _⟩ => rfl)
  have er : ∀ d : Fin 128, ridx_main_v22 (idx_main_v26 (ix2 i j)) d = ix2 d (0 : Fin 1) := fun d =>
    funext fun a => Fin.ext (by match a with | ⟨0, _⟩ => rfl | ⟨1, _⟩ => rfl)
  have eb : idx_main_v23 (idx_main_v24 (idx_main_v26 (ix2 i j))) = ix1 (0 : Fin 1) :=
    funext fun a => Fin.ext (by match a with | ⟨0, _⟩ => rfl)
  rw [val_main_v26_apply, val_main_v25_apply, val_main_v22_apply, val_main_v24_apply, val_main_v23_apply, eb,
    Ideal.addf_def]
  simp only [el, er, hidden_at]
  rfl

end Cert.ReferenceIdeal.RefScore
end
-- ==== Proof.Bridge.lean ====
/-
  The node embeddings are one function of the first five arguments in both programs: the kernel's program
  computes them on the host before its region, by the same two encoder layers, in the same order, as the
  reference. So the array the region finds is the reference's embedding stage of the launch contents.
-/
import proofs.«176014_j27152783245644_1_alg».proof.Proof.KernelIdealEntry
import proofs.«176014_j27152783245644_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- The embeddings the region finds are the reference's embedding stage of the arguments as launched. -/
theorem entry_embeddings (c : Dev nD) :
    (V m c main_v9 : S512x128.Idx → EReal)
      = Cert.ReferenceIdeal.Read.val_main_v9 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  dsimp only [V]
  simp only [hostOps0, hostOps0_1, hostOps0_2, hostOps0_3, hostOps0_4, List.flatten_cons, List.flatten_nil, List.append_nil, List.cons_append, List.nil_append]
  after_results
  rfl

end Cert.Bridge

end
-- ==== Proof.lean ====
/-
  The certificate of the pairwise edge decoder: the kernel's program and the reference compute, over the extended
  reals, the same 512 x 512 array of scores.

  Both programs first encode the nodes on the host, by the same two layers, into the embeddings h. The reference
  then forms, for every pair (i, j), the joined row [h i, h j, |h i - h j|] of length 384, contracts it with the
  first decoder weight, adds the bias, rectifies, contracts with the second weight and adds its bias. The
  kernel's program contracts h with the first two 128-row bands of the first weight once, on the host, and its
  kernel region adds, tile by tile, the contraction of |h i - h j| with the third band, the bias, rectifies, sums
  against the second weight and adds its bias. A sum over 384 terms is the sum of its three runs of 128: that
  regrouping of additions is the whole difference, and it holds in the extended reals with no finiteness, so the
  precondition is never opened.

  The three frames: each kernel program runs its host lines and then its one region, whose two windows on the
  embeddings share that array at half a share each; the reference is a straight line of host operations.
  Nothing was rewritten by the idealization, so `preserves` asks nothing.
-/
import proofs.«176014_j27152783245644_1_alg».proof.Defs
import proofs.«176014_j27152783245644_1_alg».proof.Proof.Gen.Kernel
import proofs.«176014_j27152783245644_1_alg».proof.Proof.Gen.Kernel.Skeleton
import proofs.«176014_j27152783245644_1_alg».proof.Proof.Gen.Kernel.Launch
import proofs.«176014_j27152783245644_1_alg».proof.Proof.Gen.Kernel.Points
import proofs.«176014_j27152783245644_1_alg».proof.Proof.Gen.KernelIdeal
import proofs.«176014_j27152783245644_1_alg».proof.Proof.Gen.KernelIdeal.Skeleton
import proofs.«176014_j27152783245644_1_alg».proof.Proof.Gen.KernelIdeal.Launch
import proofs.«176014_j27152783245644_1_alg».proof.Proof.Gen.KernelIdeal.Points
import proofs.«176014_j27152783245644_1_alg».proof.Proof.Gen.ReferenceIdeal
import proofs.«176014_j27152783245644_1_alg».proof.Proof.Gen.Pre_finite_inputs
import proofs.«176014_j27152783245644_1_alg».proof.Proof.Gen.ReferenceIdeal.Run
import proofs.«176014_j27152783245644_1_alg».proof.Proof.Gen.ReferenceIdeal.Read
import proofs.«176014_j27152783245644_1_alg».proof.Proof.KernelFrame
import proofs.«176014_j27152783245644_1_alg».proof.Proof.KernelIdealValue
import proofs.«176014_j27152783245644_1_alg».proof.Proof.RefScore
import proofs.«176014_j27152783245644_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the scores of the embeddings and the decoder's weights: the kernel's by the tiles its
    region writes, the reference's by reading its host line; the embeddings are one function of the first five
    arguments in both, and the arguments agree. -/
theorem algebraic : Cert.algebraic_KernelIdeal_ReferenceIdeal := by
  intro m ρ m' ρ' _ hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v26_eq, Cert.ReferenceIdeal.RefScore.ref_is_scores, h0, h1, h2, h3, h4, h5, h6, h7, h8]
  unfold Cert.KernelIdeal.HandValue.G
  dsimp only
  rw [Cert.Bridge.entry_embeddings m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
